-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x64x64 : Shape := ⟨5, ![16, 32, 32, 64, 64]⟩
abbrev S32x1x1x1 : Shape := ⟨4, ![32, 1, 1, 1]⟩
abbrev S_ : Shape := ⟨0, ![]⟩

class Facts : Prop where
  bcast_S_S16x32x32x64x64 : S_.BroadcastsInDim S16x32x32x64x64 (![] : Fin 0 → Fin S16x32x32x64x64.rank)
  reducesTo_S16x32x32x64x64_S_d0_1_2_3_4 : S16x32x32x64x64.ReducesTo [0, 1, 2, 3, 4] S_
  h_S_ : 0 < S_.numel
  bcast_S_S32x1x1x1 : S_.BroadcastsInDim S32x1x1x1 (![] : Fin 0 → Fin S32x1x1x1.rank)
  reducesTo_S32x1x1x1_S_d0_1_2_3 : S32x1x1x1.ReducesTo [0, 1, 2, 3] S_

variable [Facts]

def fn {F : FTy → Type} [FloatOps F] (main_arg0 : FVec F S16x32x32x64x64 .f32) (main_arg1 : FVec F S32x1x1x1 .f32) : IVec S_ 1 :=
  let main_v0 : FVec F S16x32x32x64x64 .f32 := Host.absf main_arg0
  let main_cst : FVec F S_ .f32 := constant S_ .f32 0x7F800000#32
  let main_v1 : FVec F S16x32x32x64x64 .f32 := broadcastInDim S16x32x32x64x64 ![] bcast_S_S16x32x32x64x64 main_cst
  let main_v2 : IVec S16x32x32x64x64 1 := cmpf .olt main_v0 main_v1
  let main_c : IVec S_ 1 := constantI S_ 1 1#1
  let main_v3 : IVec S_ 1 := (fun x v => Host.reduce IntOp.andi x v reducesTo_S16x32x32x64x64_S_d0_1_2_3_4 h_S_) main_v2 main_c
  let main_v4 : FVec F S32x1x1x1 .f32 := Host.absf main_arg1
  let main_cst_0 : FVec F S_ .f32 := constant S_ .f32 0x7F800000#32
  let main_v5 : FVec F S32x1x1x1 .f32 := broadcastInDim S32x1x1x1 ![] bcast_S_S32x1x1x1 main_cst_0
  let main_v6 : IVec S32x1x1x1 1 := cmpf .olt main_v4 main_v5
  let main_c_1 : IVec S_ 1 := constantI S_ 1 1#1
  let main_v7 : IVec S_ 1 := (fun x v => Host.reduce IntOp.andi x v reducesTo_S32x1x1x1_S_d0_1_2_3 h_S_) main_v6 main_c_1
  let main_v8 : IVec S_ 1 := andi main_v3 main_v7
  main_v8
-- ==== Kernel.lean ====
abbrev S16x32x32x64x64 : Shape := ⟨5, ![16, 32, 32, 64, 64]⟩
abbrev S32x1x1x1 : Shape := ⟨4, ![32, 1, 1, 1]⟩
abbrev S16x1x1x1 : Shape := ⟨4, ![16, 1, 1, 1]⟩
abbrev S1x8x32x64x64 : Shape := ⟨5, ![1, 8, 32, 64, 64]⟩
abbrev S8x1x1x1 : Shape := ⟨4, ![8, 1, 1, 1]⟩
abbrev S1x1x1x1 : Shape := ⟨4, ![1, 1, 1, 1]⟩
abbrev S8x32x64x64 : Shape := ⟨4, ![8, 32, 64, 64]⟩
abbrev S8x32x64x32x2 : Shape := ⟨5, ![8, 32, 64, 32, 2]⟩
abbrev S8x32x64x32 : Shape := ⟨4, ![8, 32, 64, 32]⟩
abbrev S8x32x32x2x32 : Shape := ⟨5, ![8, 32, 32, 2, 32]⟩
abbrev S8x32x32x32 : Shape := ⟨4, ![8, 32, 32, 32]⟩
abbrev S8x16x2x32x32 : Shape := ⟨5, ![8, 16, 2, 32, 32]⟩
abbrev S8x16x32x32 : Shape := ⟨4, ![8, 16, 32, 32]⟩
abbrev S8x16x32 : Shape := ⟨3, ![8, 16, 32]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x32x32x64x64, .f32⟩
  | .hbm, ⟨1, _⟩ => ⟨S32x1x1x1, .f32⟩
  | .hbm, ⟨2, _⟩ => ⟨S16x1x1x1, .f32⟩
  | .local _ .vmem, ⟨0, _⟩ => ⟨S1x8x32x64x64, .f32⟩
  | .local _ .vmem, ⟨1, _⟩ => ⟨S1x8x32x64x64, .f32⟩
  | .local _ .vmem, ⟨2, _⟩ => ⟨S8x1x1x1, .f32⟩
  | .local _ .vmem, ⟨3, _⟩ => ⟨S8x1x1x1, .f32⟩
  | .local _ .vmem, ⟨4, _⟩ => ⟨S1x1x1x1, .f32⟩
  | .local _ .vmem, ⟨5, _⟩ => ⟨S1x1x1x1, .f32⟩
  | _, _ => ⟨S16x32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1x1_S1x1x1x1_0_0_0_0 : ∀ a, (![0, 0, 0, 0] : Fin 4 → Nat) a + S1x1x1x1.size a ≤ S1x1x1x1.size a
  h_S1x1x1x1 : 0 < S1x1x1x1.numel
  inb_S1x8x32x64x64_S1x8x32x64x64_0_0_0_0_0 : ∀ a, (![0, 0, 0, 0, 0] : Fin 5 → Nat) a + S1x8x32x64x64.size a ≤ S1x8x32x64x64.size a
  h_S1x8x32x64x64 : 0 < S1x8x32x64x64.numel
  shapeCasts_S1x8x32x64x64_S8x32x64x64 : S1x8x32x64x64.ShapeCasts S8x32x64x64
  shapeCasts_S8x32x64x64_S8x32x64x32x2 : S8x32x64x64.ShapeCasts S8x32x64x32x2
  reduces_S8x32x64x32x2_S8x32x64x32 : S8x32x64x32x2.Reduces [4] S8x32x64x32
  shapeCasts_S8x32x64x32_S8x32x32x2x32 : S8x32x64x32.ShapeCasts S8x32x32x2x32
  reduces_S8x32x32x2x32_S8x32x32x32 : S8x32x32x2x32.Reduces [3] S8x32x32x32
  shapeCasts_S8x32x32x32_S8x16x2x32x32 : S8x32x32x32.ShapeCasts S8x16x2x32x32
  reduces_S8x16x2x32x32_S8x16x32x32 : S8x16x2x32x32.Reduces [2] S8x16x32x32
  reduces_S8x16x32x32_S8x16x32 : S8x16x32x32.Reduces [3] S8x16x32
  reduces_S8x16x32_S8x16 : S8x16x32.Reduces [2] S8x16
  reduces_S8x16_S8 : S8x16.Reduces [1] S8
  inb_S8x1x1x1_S8x1x1x1_0_0_0_0 : ∀ a, (![0, 0, 0, 0] : Fin 4 → Nat) a + S8x1x1x1.size a ≤ S8x1x1x1.size a
  h_S8x1x1x1 : 0 < S8x1x1x1.numel
  shapeCasts_S8x1x1x1_S8 : S8x1x1x1.ShapeCasts S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1x1x1_S1x1x1x1 : S1x1x1x1.ShapeCasts S1x1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x64x64.size a ≤ S16x32x32x64x64.size a
  hwx0_0 : ∀ i : grid0.Coords, EltTy.bits .f32 = 32 ∨ (Rect.block (s := S16x32x32x64x64) S1x8x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1x1.size a ≤ S32x1x1x1.size a
  hwx0_1 : ∀ i : grid0.Coords, EltTy.bits .f32 = 32 ∨ (Rect.block (s := S32x1x1x1) S8x1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S16x1x1x1.size a
  hwx0_2 : ∀ i : grid0.Coords, EltTy.bits .f32 = 32 ∨ (Rect.block (s := S16x1x1x1) S1x1x1x1.size (cc0_transform_2 i) (hinb0_2 i)).WholeWords (EltTy.packing .f32)

variable [Facts₀]

abbrev win0_0 : Pipeline.Window sig grid0 :=
  Pipeline.Window.ofSpec (Memref.whole main_arg0) S1x8x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x32x64x64 : Shape := ⟨5, ![16, 32, 32, 64, 64]⟩
abbrev S32x1x1x1 : Shape := ⟨4, ![32, 1, 1, 1]⟩
abbrev S_ : Shape := ⟨0, ![]⟩
abbrev S16x32x16x2x32x2x32x2 : Shape := ⟨8, ![16, 32, 16, 2, 32, 2, 32, 2]⟩
abbrev S16x32x16x32x32 : Shape := ⟨5, ![16, 32, 16, 32, 32]⟩
abbrev S16x32 : Shape := ⟨2, ![16, 32]⟩
abbrev S1x32 : Shape := ⟨2, ![1, 32]⟩
abbrev S16 : Shape := ⟨1, ![16]⟩
abbrev S16x1x1x1 : Shape := ⟨4, ![16, 1, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x32x32x64x64, .f32⟩
  | .hbm, ⟨1, _⟩ => ⟨S32x1x1x1, .f32⟩
  | .hbm, ⟨2, _⟩ => ⟨S_, .f32⟩
  | .hbm, ⟨3, _⟩ => ⟨S16x32x32x64x64, .f32⟩
  | .hbm, ⟨4, _⟩ => ⟨S16x32x32x64x64, .f32⟩
  | .hbm, ⟨5, _⟩ => ⟨S16x32x16x2x32x2x32x2, .f32⟩
  | .hbm, ⟨6, _⟩ => ⟨S_, .f32⟩
  | .hbm, ⟨7, _⟩ => ⟨S16x32x16x32x32, .f32⟩
  | .hbm, ⟨8, _⟩ => ⟨S_, .f32⟩
  | .hbm, ⟨9, _⟩ => ⟨S16x32, .f32⟩
  | .hbm, ⟨10, _⟩ => ⟨S_, .f32⟩
  | .hbm, ⟨11, _⟩ => ⟨S16x32, .f32⟩
  | .hbm, ⟨12, _⟩ => ⟨S16x32, .f32⟩
  | .hbm, ⟨13, _⟩ => ⟨S1x32, .f32⟩
  | .hbm, ⟨14, _⟩ => ⟨S16x32, .f32⟩
  | .hbm, ⟨15, _⟩ => ⟨S16x32, .f32⟩
  | .hbm, ⟨16, _⟩ => ⟨S_, .f32⟩
  | .hbm, ⟨17, _⟩ => ⟨S16, .f32⟩
  | .hbm, ⟨18, _⟩ => ⟨S16x1x1x1, .f32⟩
  | _, _ => ⟨S16x32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16x32x32x64x64 : S_.BroadcastsInDim S16x32x32x64x64 (![] : Fin 0 → Fin S16x32x32x64x64.rank)
  shapeCasts_S16x32x32x64x64_S16x32x16x2x32x2x32x2 : S16x32x32x64x64.ShapeCasts S16x32x16x2x32x2x32x2
  reducesTo_S16x32x16x2x32x2x32x2_S16x32x16x32x32_d3_5_7 : S16x32x16x2x32x2x32x2.ReducesTo [3, 5, 7] S16x32x16x32x32
  h_S_ : 0 < S_.numel
  reducesTo_S16x32x16x32x32_S16x32_d2_3_4 : S16x32x16x32x32.ReducesTo [2, 3, 4] S16x32
  bcast_S_S16x32 : S_.BroadcastsInDim S16x32 (![] : Fin 0 → Fin S16x32.rank)
  shapeCasts_S32x1x1x1_S1x32 : S32x1x1x1.ShapeCasts S1x32
  bcast_S1x32_S16x32_0_1 : S1x32.BroadcastsInDim S16x32 (![0, 1] : Fin 2 → Fin S16x32.rank)
  reducesTo_S16x32_S16_d1 : S16x32.ReducesTo [1] S16
  shapeCasts_S16_S16x1x1x1 : S16.ShapeCasts S16x1x1x1

variable [Facts₀]

class Facts : Prop extends Facts₀ where

variable [Facts]
-- ==== Proof.Pool.lean ====
import Idealize.ShloMosaic.PureOps.Ideal

/-! # The largest entry of a 2×2×2 cell, and scaling by a positive real

Max pooling with window 2 in three axes takes, per output entry, the largest of eight inputs. On the extended reals
`max` is commutative, associative and idempotent, so it does not matter whether the eight are taken one axis at a
time or all at once, nor how the set holding them is indexed: two folds of `max` from `⊥` agree as soon as each
entry of one occurs in the other. Multiplying by a positive real `c` is monotone and fixes `⊥`, so it commutes
with the maximum; and for `c ≥ 0` real it distributes over every sum of extended reals, infinite entries
included (`(⊤ + ⊥)·c = ⊥ = ⊤·c + ⊥·c`). -/

noncomputable section

namespace Cert.Pool

open scoped BigOperators

/-- The largest of the eight entries of a 2×2×2 cell. -/
def cellMax (f : Fin 2 → Fin 2 → Fin 2 → EReal) : EReal :=
  (Finset.univ : Finset (Fin 2 × Fin 2 × Fin 2)).fold max ⊥ fun q => f q.1 q.2.1 q.2.2

theorem le_cellMax (f : Fin 2 → Fin 2 → Fin 2 → EReal) (a b d : Fin 2) : f a b d ≤ cellMax f :=
  (Finset.le_fold_max _).2 (Or.inr ⟨(a, b, d), Finset.mem_univ _, le_rfl⟩)

theorem cellMax_le {f : Fin 2 → Fin 2 → Fin 2 → EReal} {c : EReal} (h : ∀ a b d, f a b d ≤ c) : cellMax f ≤ c :=
  (Finset.fold_max_le _).2 ⟨bot_le, fun q _ => h q.1 q.2.1 q.2.2⟩

/-- One axis at a time — the last axis, then the middle one, then the first — gives the cell's maximum. -/
theorem nested_eq_cellMax (f : Fin 2 → Fin 2 → Fin 2 → EReal) :
    ((Finset.univ : Finset (Fin 2)).fold max ⊥ fun a => (Finset.univ : Finset (Fin 2)).fold max ⊥ fun b =>
      (Finset.univ : Finset (Fin 2)).fold max ⊥ fun d => f a b d) = cellMax f := by
  apply le_antisymm
  · exact (Finset.fold_max_le _).2 ⟨bot_le, fun a _ => (Finset.fold_max_le _).2 ⟨bot_le, fun b _ =>
      (Finset.fold_max_le _).2 ⟨bot_le, fun d _ => le_cellMax f a b d⟩⟩⟩
  · exact cellMax_le fun a b d => (Finset.le_fold_max _).2 (Or.inr ⟨a, Finset.mem_univ _,
      (Finset.le_fold_max _).2 (Or.inr ⟨b, Finset.mem_univ _,
        (Finset.le_fold_max _).2 (Or.inr ⟨d, Finset.mem_univ _, le_rfl⟩)⟩)⟩)

/-- A fold of `max` from `⊥` over ANY finite set whose entries are exactly the cell's entries is the cell's maximum. -/
theorem fold_eq_cellMax {ι : Type*} (s : Finset ι) (g : ι → EReal) (f : Fin 2 → Fin 2 → Fin 2 → EReal)
    (h1 : ∀ i ∈ s, ∃ a b d, g i = f a b d) (h2 : ∀ a b d, ∃ i ∈ s, g i = f a b d) :
    s.fold max ⊥ g = cellMax f := by
  apply le_antisymm
  · refine (Finset.fold_max_le _).2 ⟨bot_le, fun i hi => ?_⟩
    obtain ⟨a, b, d, e⟩ := h1 i hi
    rw [e]; exact le_cellMax f a b d
  · refine cellMax_le fun a b d => ?_
    obtain ⟨i, hi, e⟩ := h2 a b d
    exact (Finset.le_fold_max _).2 (Or.inr ⟨i, hi, e.ge⟩)

/-- Scaling every entry by a positive real scales the cell's maximum. -/
theorem cellMax_mul (f : Fin 2 → Fin 2 → Fin 2 → EReal) {c : ℝ} (hc : 0 < c) :
    cellMax (fun a b d => f a b d * (c : EReal)) = cellMax f * (c : EReal) := by
  have hm : ∀ x y : EReal, max x y * (c : EReal) = max (x * (c : EReal)) (y * (c : EReal)) := fun x y =>
    Monotone.map_max (f := fun z : EReal => z * (c : EReal))
      fun _ _ h => mul_le_mul_of_nonneg_right h (EReal.coe_nonneg.2 hc.le)
  have h := Finset.fold_hom (op := max) (op' := max) (m := fun z : EReal => z * (c : EReal)) (b := ⊥)
    (s := (Finset.univ : Finset (Fin 2 × Fin 2 × Fin 2))) (f := fun q => f q.1 q.2.1 q.2.2) hm
  rw [EReal.bot_mul_coe_of_pos hc] at h
  exact h

/-- A nonnegative real factor comes out of any finite sum of extended reals. -/
theorem sum_mul_const {ι : Type*} (s : Finset ι) (g : ι → EReal) {c : ℝ} (hc : 0 ≤ c) :
    ∑ i ∈ s, g i * (c : EReal) = (∑ i ∈ s, g i) * (c : EReal) := by
  classical
  refine Finset.induction_on s (by simp) ?_
  intro a s ha ih
  rw [Finset.sum_insert ha, Finset.sum_insert ha, ih,
    EReal.right_distrib_of_nonneg_of_ne_top (EReal.coe_nonneg.2 hc) (EReal.coe_ne_top c)]

/-- Halving and then dividing by `16384` is multiplying by `2⁻¹⁵`. -/
theorem half_mul_inv16384 (X : EReal) :
    X * ((1 / 2 : ℝ) : EReal) * ((1 / 16384 : ℝ) : EReal) = X * ((1 / 32768 : ℝ) : EReal) := by
  rw [mul_assoc, ← EReal.coe_mul]
  norm_num

end Cert.Pool

end
-- ==== Proof.Consts.lean ====
import Idealize.ShloMosaic.PureOps.Ideal

/-! # The float patterns the two programs spell, as extended reals

Five f32 patterns occur: `+0.0`, `2.0`, `16384.0`, `2⁻¹⁵` (the kernel's folded `1 / (16·32·32·2)`) and `-∞`
(the value every maximum starts from). Each is read once here. -/

noncomputable section

namespace Cert.Consts

open Idealize.ShloMosaic

/-- `+0.0` is `0`. -/
theorem ofBits_zero : Ideal.ofBits .f32 0x00000000#32 = 0 := by
  simp [Ideal.ofBits, Ideal.ieee]

/-- `2.0` is the real `2`. -/
theorem ofBits_two : Ideal.ofBits .f32 0x40000000#32 = ((2 : ℝ) : EReal) := by
  simp [Ideal.ofBits, Ideal.ieee, -EReal.coe_mul]; norm_num

/-- `16384.0 = 2¹⁴` is the real `16384`. -/
theorem ofBits_16384 : Ideal.ofBits .f32 0x46800000#32 = ((16384 : ℝ) : EReal) := by
  simp [Ideal.ofBits, Ideal.ieee, -EReal.coe_mul]; norm_num

/-- `3.0517578e-5 = 2⁻¹⁵` is the real `1 / 32768`, exactly. -/
theorem ofBits_inv32768 : Ideal.ofBits .f32 0x38000000#32 = ((1 / 32768 : ℝ) : EReal) := by
  simp [Ideal.ofBits, Ideal.ieee, -EReal.coe_mul]; norm_num

/-- The pattern `0xFF800000` is `-∞`, the bottom of the extended reals. -/
theorem ofBits_neg_inf : Ideal.ofBits .f32 0xFF800000#32 = ⊥ := by
  simp [Ideal.ofBits, Ideal.ieee]

end Cert.Consts

end
-- ==== Proof.Idx8.lean ====
import Idealize.ShloMosaic.Lib.ValueIdx

/-! # Rank-8 indices

Splitting each of three axes of a rank-5 array in two gives a rank-8 view. An index of it from its eight
coordinates, and its row-major position as one sum of products: the position of `(n, ch, pd, a, ph, b, pw, d)` in
`[16, 32, 16, 2, 32, 2, 32, 2]` is that of `(n, ch, 2·pd + a, 2·ph + b, 2·pw + d)` in `[16, 32, 32, 64, 64]`. -/

namespace Cert.Idx8

open Idealize.ShloMosaic Idealize.ShloMosaic.Shape Idealize.ShloMosaic.ValueIdx

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun f => match f with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (rowMajorPi d i).val = _
  rw [rowMajorPi_succ_val, rowMajorPi_succ_val, rowMajorPi_succ_val, rowMajorPi_succ_val, rowMajorPi_succ_val,
    rowMajorPi_succ_val, rowMajorPi_succ_val, rowMajorPi_succ_val]
  simp [rowMajorPi_zero, Fin.prod_univ_succ, Nat.add_mul, Nat.mul_assoc, Nat.add_assoc]

/-- Entry `a` of pair `p` along an axis of 32 split into 16 pairs: `2·p + a`. -/
abbrev up16 (p : Fin 16) (a : Fin 2) : Fin 32 := ⟨2 * p.val + a.val, by have := p.isLt; have := a.isLt; omega⟩

/-- Entry `a` of pair `p` along an axis of 64 split into 32 pairs: `2·p + a`. -/
abbrev up32 (p : Fin 32) (a : Fin 2) : Fin 64 := ⟨2 * p.val + a.val, by have := p.isLt; have := a.isLt; omega⟩

/-- The cell entry `(a, b, d)` of pooled position `(pd, ph, pw)` in the split view is the array's entry at
    `(2·pd + a, 2·ph + b, 2·pw + d)`: the two indices have one row-major position. -/
theorem split_pos (n : Fin 16) (ch : Fin 32) (pd : Fin 16) (a : Fin 2) (ph : Fin 32) (b : Fin 2) (pw : Fin 32) (d : Fin 2)
    (hd : 2 * pd.val + a.val < 32) (hh : 2 * ph.val + b.val < 64) (hw : 2 * pw.val + d.val < 64) :
    ((⟨5, ![16, 32, 32, 64, 64]⟩ : Shape).rowMajor
        (ix5 n ch (⟨2 * pd.val + a.val, hd⟩ : Fin 32) (⟨2 * ph.val + b.val, hh⟩ : Fin 64) (⟨2 * pw.val + d.val, hw⟩ : Fin 64))).val
      = ((⟨8, ![16, 32, 16, 2, 32, 2, 32, 2]⟩ : Shape).rowMajor (ix8 n ch pd a ph b pw d)).val := by
  rw [rowMajor_val_five, rowMajor_val_eight]
  show ((((n.val * 32 + ch.val) * 32 + (2 * pd.val + a.val)) * 64 + (2 * ph.val + b.val)) * 64 + (2 * pw.val + d.val))
    = (((((((n.val * 32 + ch.val) * 16 + pd.val) * 2 + a.val) * 32 + ph.val) * 2 + b.val) * 32 + pw.val) * 2 + d.val)
  omega

/-- The same, over `up16` / `up32`. -/
theorem split_pos_up (n : Fin 16) (ch : Fin 32) (pd : Fin 16) (a : Fin 2) (ph : Fin 32) (b : Fin 2) (pw : Fin 32) (d : Fin 2) :
    ((⟨5, ![16, 32, 32, 64, 64]⟩ : Shape).rowMajor (ix5 n ch (up16 pd a) (up32 ph b) (up32 pw d))).val
      = ((⟨8, ![16, 32, 16, 2, 32, 2, 32, 2]⟩ : Shape).rowMajor (ix8 n ch pd a ph b pw d)).val :=
  split_pos n ch pd a ph b pw d _ _ _

end Cert.Idx8
-- ==== Proof.KerPay.lean ====
import proofs.«131648_j25056839205222_1_alg».proof.Proof.Gen.KernelIdeal.Skeleton
import Idealize.ShloMosaic.Lib.ValueIdx
import Idealize.ShloMosaic.Lib.Pipeline.Value
import Idealize.ShloMosaic.PureOps.Ideal.Laws
import proofs.«131648_j25056839205222_1_alg».proof.Proof.Pool
import proofs.«131648_j25056839205222_1_alg».proof.Proof.Consts
import proofs.«131648_j25056839205222_1_alg».proof.Proof.Idx8

/-! # What one grid point adds to the output entry

At one grid point the body holds one batch row's block of eight channels, `x0 : [1, 8, 32, 64, 64]`, and the eight
biases `x1 : [8, 1, 1, 1]`. It pools each channel with window 2 in depth, height and width — the width pairs first,
then the height pairs, then the depth pairs —, sums the pooled `[16, 32, 32]` volume one axis at a time, scales by
`2⁻¹⁵`, adds the channel's bias, sums the eight channels and adds that to the entry `acc` already there. Each
operation is read at an index below; composed, the body's result is `acc + ∑ c', (S c' · 2⁻¹⁵ + bias c')` with
`S c'` the sum over pooled positions of the 2×2×2 cell maxima. -/

noncomputable section

namespace Cert.KerPay

open Idealize.ShloMosaic Idealize.ShloMosaic.ValueIdx Cert.KernelIdeal Cert.KernelIdeal.Gen Cert.Pool Cert.Idx8
open scoped BigOperators

/-! ## The reshapes, read at an index -/

theorem cast_blk (x : FVec Ideal S1x8x32x64x64 .f32) (h : S1x8x32x64x64.ShapeCasts S8x32x64x64)
    (c' : Fin 8) (d : Fin 32) (r : Fin 64) (w : Fin 64) :
    shapeCast S8x32x64x64 x h (ix4 c' d r w) = x (ix5 (0 : Fin 1) c' d r w) :=
  shapeCast_apply x h _ _ (by
    rw [Shape.rowMajor_val_five, Shape.rowMajor_val_four]
    show ((((0 * 8 + c'.val) * 32 + d.val) * 64 + r.val) * 64 + w.val) = (((c'.val * 32 + d.val) * 64 + r.val) * 64 + w.val)
    omega)

theorem cast_w (v : FVec Ideal S8x32x64x64 .f32) (h : S8x32x64x64.ShapeCasts S8x32x64x32x2)
    (c' : Fin 8) (d : Fin 32) (r : Fin 64) (pw : Fin 32) (e : Fin 2) :
    shapeCast S8x32x64x32x2 v h (ix5 c' d r pw e) = v (ix4 c' d r (up32 pw e)) :=
  shapeCast_apply v h _ _ (by
    rw [Shape.rowMajor_val_five, Shape.rowMajor_val_four]
    show (((c'.val * 32 + d.val) * 64 + r.val) * 64 + (2 * pw.val + e.val))
      = ((((c'.val * 32 + d.val) * 64 + r.val) * 32 + pw.val) * 2 + e.val)
    omega)

theorem cast_h (v : FVec Ideal S8x32x64x32 .f32) (h : S8x32x64x32.ShapeCasts S8x32x32x2x32)
    (c' : Fin 8) (d : Fin 32) (ph : Fin 32) (b : Fin 2) (pw : Fin 32) :
    shapeCast S8x32x32x2x32 v h (ix5 c' d ph b pw) = v (ix4 c' d (up32 ph b) pw) :=
  shapeCast_apply v h _ _ (by
    rw [Shape.rowMajor_val_five, Shape.rowMajor_val_four]
    show (((c'.val * 32 + d.val) * 64 + (2 * ph.val + b.val)) * 32 + pw.val)
      = ((((c'.val * 32 + d.val) * 32 + ph.val) * 2 + b.val) * 32 + pw.val)
    omega)

theorem cast_d (v : FVec Ideal S8x32x32x32 .f32) (h : S8x32x32x32.ShapeCasts S8x16x2x32x32)
    (c' : Fin 8) (pd : Fin 16) (a : Fin 2) (ph : Fin 32) (pw : Fin 32) :
    shapeCast S8x16x2x32x32 v h (ix5 c' pd a ph pw) = v (ix4 c' (up16 pd a) ph pw) :=
  shapeCast_apply v h _ _ (by
    rw [Shape.rowMajor_val_five, Shape.rowMajor_val_four]
    show (((c'.val * 32 + (2 * pd.val + a.val)) * 32 + ph.val) * 32 + pw.val)
      = ((((c'.val * 16 + pd.val) * 2 + a.val) * 32 + ph.val) * 32 + pw.val)
    omega)

theorem cast_bias (x : FVec Ideal S8x1x1x1 .f32) (h : S8x1x1x1.ShapeCasts S8) (c' : Fin 8) :
    shapeCast S8 x h (ix1 c') = x (ix4 c' (0 : Fin 1) (0 : Fin 1) (0 : Fin 1)) :=
  shapeCast_apply x h _ _ (by
    rw [Shape.rowMajor_val_four, Shape.rowMajor_val_one]
    show (((c'.val * 1 + 0) * 1 + 0) * 1 + 0) = c'.val
    omega)

theorem cast_row (v : FVec Ideal S8 .f32) (h : S8.ShapeCasts S1x8) (c' : Fin 8) :
    shapeCast S1x8 v h (ix2 (0 : Fin 1) c') = v (ix1 c') :=
  shapeCast_apply v h _ _ (by
    rw [Shape.rowMajor_val_one, Shape.rowMajor_val_two]
    show c'.val = 0 * 8 + c'.val
    omega)

theorem cast_one (v : FVec Ideal S1 .f32) (h : S1.ShapeCasts S1x1) (j : S1x1.Idx) :
    shapeCast S1x1 v h j = v (ix1 (0 : Fin 1)) :=
  shapeCast_apply v h _ _ (by
    rw [Shape.rowMajor_val_one, Shape.rowMajor_val_two]
    have h0 : (j 0).val < 1 := (j 0).isLt
    have h1 : (j 1).val < 1 := (j 1).isLt
    show 0 = (j 0).val * 1 + (j 1).val
    omega)

/-! ## The one-axis maxima and sums, read at an index -/

theorem max_w (v : FVec Ideal S8x32x64x32x2 .f32) (hr : S8x32x64x32x2.Reduces [4] S8x32x64x32) (hφ : FKind.Formats .f32)
    (hacc : (0xFF800000#32 : BitVec 32) = FKind.maximumf.neutral .f32 hφ) (c' : Fin 8) (d : Fin 32) (r : Fin 64) (pw : Fin 32) :
    multiReduction .maximumf [4] S8x32x64x32 v 0xFF800000#32 hr hφ hacc (ix4 c' d r pw)
      = (Finset.univ : Finset (Fin 2)).fold max ⊥ fun e => v (ix5 c' d r pw e) := by
  rw [Ideal.multiReduction_maximumf_single, ← Consts.ofBits_neg_inf]
  refine Finset.fold_congr fun e _ => ?_
  exact congrArg v (funext fun a => Fin.ext (by
    match a with | ⟨0, _⟩ => rfl | ⟨1, _⟩ => rfl | ⟨2, _⟩ => rfl | ⟨3, _⟩ => rfl | ⟨4, _⟩ => rfl))

theorem max_h (v : FVec Ideal S8x32x32x2x32 .f32) (hr : S8x32x32x2x32.Reduces [3] S8x32x32x32) (hφ : FKind.Formats .f32)
    (hacc : (0xFF800000#32 : BitVec 32) = FKind.maximumf.neutral .f32 hφ) (c' : Fin 8) (d : Fin 32) (ph : Fin 32) (pw : Fin 32) :
    multiReduction .maximumf [3] S8x32x32x32 v 0xFF800000#32 hr hφ hacc (ix4 c' d ph pw)
      = (Finset.univ : Finset (Fin 2)).fold max ⊥ fun b => v (ix5 c' d ph b pw) := by
  rw [Ideal.multiReduction_maximumf_single, ← Consts.ofBits_neg_inf]
  refine Finset.fold_congr fun e _ => ?_
  exact congrArg v (funext fun a => Fin.ext (by
    match a with | ⟨0, _⟩ => rfl | ⟨1, _⟩ => rfl | ⟨2, _⟩ => rfl | ⟨3, _⟩ => rfl | ⟨4, _⟩ => rfl))

theorem max_d (v : FVec Ideal S8x16x2x32x32 .f32) (hr : S8x16x2x32x32.Reduces [2] S8x16x32x32) (hφ : FKind.Formats .f32)
    (hacc : (0xFF800000#32 : BitVec 32) = FKind.maximumf.neutral .f32 hφ) (c' : Fin 8) (pd : Fin 16) (ph : Fin 32) (pw : Fin 32) :
    multiReduction .maximumf [2] S8x16x32x32 v 0xFF800000#32 hr hφ hacc (ix4 c' pd ph pw)
      = (Finset.univ : Finset (Fin 2)).fold max ⊥ fun a => v (ix5 c' pd a ph pw) := by
  rw [Ideal.multiReduction_maximumf_single, ← Consts.ofBits_neg_inf]
  refine Finset.fold_congr fun e _ => ?_
  exact congrArg v (funext fun a => Fin.ext (by
    match a with | ⟨0, _⟩ => rfl | ⟨1, _⟩ => rfl | ⟨2, _⟩ => rfl | ⟨3, _⟩ => rfl | ⟨4, _⟩ => rfl))

theorem sum_w (v : FVec Ideal S8x16x32x32 .f32) (hr : S8x16x32x32.Reduces [3] S8x16x32) (hφ : FKind.Formats .f32)
    (hacc : (0x00000000#32 : BitVec 32) = FKind.add.neutral .f32 hφ) (c' : Fin 8) (pd : Fin 16) (ph : Fin 32) :
    multiReduction .add [3] S8x16x32 v 0x00000000#32 hr hφ hacc (ix3 c' pd ph) = ∑ pw : Fin 32, v (ix4 c' pd ph pw) := by
  rw [Ideal.multiReduction_add_single]
  refine Finset.sum_congr rfl fun k _ => ?_
  exact congrArg v (funext fun a => Fin.ext (by
    match a with | ⟨0, _⟩ => rfl | ⟨1, _⟩ => rfl | ⟨2, _⟩ => rfl | ⟨3, _⟩ => rfl))

theorem sum_h (v : FVec Ideal S8x16x32 .f32) (hr : S8x16x32.Reduces [2] S8x16) (hφ : FKind.Formats .f32)
    (hacc : (0x00000000#32 : BitVec 32) = FKind.add.neutral .f32 hφ) (c' : Fin 8) (pd : Fin 16) :
    multiReduction .add [2] S8x16 v 0x00000000#32 hr hφ hacc (ix2 c' pd) = ∑ ph : Fin 32, v (ix3 c' pd ph) := by
  rw [Ideal.multiReduction_add_single]
  refine Finset.sum_congr rfl fun k _ => ?_
  exact congrArg v (funext fun a => Fin.ext (by
    match a with | ⟨0, _⟩ => rfl | ⟨1, _⟩ => rfl | ⟨2, _⟩ => rfl))

theorem sum_d (v : FVec Ideal S8x16 .f32) (hr : S8x16.Reduces [1] S8) (hφ : FKind.Formats .f32)
    (hacc : (0x00000000#32 : BitVec 32) = FKind.add.neutral .f32 hφ) (c' : Fin 8) :
    multiReduction .add [1] S8 v 0x00000000#32 hr hφ hacc (ix1 c') = ∑ pd : Fin 16, v (ix2 c' pd) := by
  rw [Ideal.multiReduction_add_single]
  refine Finset.sum_congr rfl fun k _ => ?_
  exact congrArg v (funext fun a => Fin.ext (by
    match a with | ⟨0, _⟩ => rfl | ⟨1, _⟩ => rfl))

theorem sum_ch (v : FVec Ideal S1x8 .f32) (hr : S1x8.Reduces [1] S1) (hφ : FKind.Formats .f32)
    (hacc : (0x00000000#32 : BitVec 32) = FKind.add.neutral .f32 hφ) :
    multiReduction .add [1] S1 v 0x00000000#32 hr hφ hacc (ix1 (0 : Fin 1)) = ∑ c' : Fin 8, v (ix2 (0 : Fin 1) c') := by
  rw [Ideal.multiReduction_add_single]
  refine Finset.sum_congr rfl fun k _ => ?_
  exact congrArg v (funext fun a => Fin.ext (by
    match a with | ⟨0, _⟩ => rfl | ⟨1, _⟩ => rfl))

/-! ## The body's result, in three stretches -/

/-- THE POOLING: the width pairs, then the height pairs, then the depth pairs, each a one-axis maximum of a
    reshaped volume, leave at pooled position `(pd, ph, pw)` of channel `c'` the largest of the cell's eight entries. -/
theorem pool_apply (v : FVec Ideal S8x32x64x64 .f32) (h5 : S8x32x64x64.ShapeCasts S8x32x64x32x2)
    (h7 : S8x32x64x32.ShapeCasts S8x32x32x2x32) (h9 : S8x32x32x32.ShapeCasts S8x16x2x32x32)
    (r6 : S8x32x64x32x2.Reduces [4] S8x32x64x32) (r8 : S8x32x32x2x32.Reduces [3] S8x32x32x32)
    (r10 : S8x16x2x32x32.Reduces [2] S8x16x32x32) (hφ : FKind.Formats .f32)
    (hacc : (0xFF800000#32 : BitVec 32) = FKind.maximumf.neutral .f32 hφ)
    (c' : Fin 8) (pd : Fin 16) (ph : Fin 32) (pw : Fin 32) :
    multiReduction .maximumf [2] S8x16x32x32
        (shapeCast S8x16x2x32x32
          (multiReduction .maximumf [3] S8x32x32x32
            (shapeCast S8x32x32x2x32
              (multiReduction .maximumf [4] S8x32x64x32 (shapeCast S8x32x64x32x2 v h5) 0xFF800000#32 r6 hφ hacc) h7)
            0xFF800000#32 r8 hφ hacc) h9)
        0xFF800000#32 r10 hφ hacc (ix4 c' pd ph pw)
      = cellMax fun a b e => v (ix4 c' (up16 pd a) (up32 ph b) (up32 pw e)) := by
  rw [max_d]
  refine Eq.trans ?_ (nested_eq_cellMax _)
  refine Finset.fold_congr fun a _ => ?_
  rw [cast_d, max_h]
  refine Finset.fold_congr fun b _ => ?_
  rw [cast_h, max_w]
  refine Finset.fold_congr fun e _ => ?_
  rw [cast_w]

/-- THE THREE SUMS, one axis at a time, are the sum over the pooled positions. -/
theorem sum3_apply (u : FVec Ideal S8x16x32x32 .f32) (r11 : S8x16x32x32.Reduces [3] S8x16x32)
    (r12 : S8x16x32.Reduces [2] S8x16) (r13 : S8x16.Reduces [1] S8) (hφ : FKind.Formats .f32)
    (hacc : (0x00000000#32 : BitVec 32) = FKind.add.neutral .f32 hφ) (c' : Fin 8) :
    multiReduction .add [1] S8
        (multiReduction .add [2] S8x16 (multiReduction .add [3] S8x16x32 u 0x00000000#32 r11 hφ hacc)
          0x00000000#32 r12 hφ hacc)
        0x00000000#32 r13 hφ hacc (ix1 c')
      = ∑ pd : Fin 16, ∑ ph : Fin 32, ∑ pw : Fin 32, u (ix4 c' pd ph pw) := by
  rw [sum_d]
  refine Finset.sum_congr rfl fun pd _ => ?_
  rw [sum_h]
  refine Finset.sum_congr rfl fun ph _ => ?_
  rw [sum_w]

/-- THE TAIL: the eight channel sums `s` scaled by `2⁻¹⁵`, their biases added, the eight summed, and that added to
    the entry already there. -/
theorem tail_apply (s : FVec Ideal S8 .f32) (x1 : FVec Ideal S8x1x1x1 .f32) (acc : FVec Ideal S1x1x1x1 .f32)
    (h17 : S8x1x1x1.ShapeCasts S8) (h19 : S8.ShapeCasts S1x8) (h21 : S1.ShapeCasts S1x1)
    (h24 : S1x1x1x1.ShapeCasts S1x1x1x1) (r20 : S1x8.Reduces [1] S1) (hφ : FKind.Formats .f32)
    (hacc : (0x00000000#32 : BitVec 32) = FKind.add.neutral .f32 hφ)
    (hin : ∀ a, (![0, 0] : Fin 2 → Nat) a < S1x1.size a) (y : S1x1x1x1.Idx) :
    addf (shapeCast S1x1x1x1 acc h24)
        (broadcast S1x1x1x1
          (extractAt ![0, 0]
            (shapeCast S1x1
              (multiReduction .add [1] S1
                (shapeCast S1x8
                  (addf (mulf s (broadcast S8 (FloatOps.ofBits .f32 0x38000000#32))) (shapeCast S8 x1 h17)) h19)
                0x00000000#32 r20 hφ hacc) h21) hin)) y
      = acc y + ∑ c' : Fin 8, (s (ix1 c') * ((1 / 32768 : ℝ) : EReal) + x1 (ix4 c' (0 : Fin 1) (0 : Fin 1) (0 : Fin 1))) := by
  rw [addf_apply, shapeCast_self, broadcast_apply]
  unfold extractAt
  rw [cast_one, sum_ch]
  refine congrArg (acc y + ·) (Finset.sum_congr rfl fun c' _ => ?_)
  rw [cast_row, addf_apply, mulf_apply, broadcast_apply, cast_bias, Ideal.ofBits_def, Consts.ofBits_inv32768]

/-! ## The body's result -/

/-- The 2×2×2 cell maximum of channel `c'` of the block at pooled position `(pd, ph, pw)`. -/
def pooledBlk (x0 : FVec Ideal S1x8x32x64x64 .f32) (c' : Fin 8) (pd : Fin 16) (ph : Fin 32) (pw : Fin 32) : EReal :=
  cellMax fun a b e => x0 (ix5 (0 : Fin 1) c' (up16 pd a) (up32 ph b) (up32 pw e))

/-- What the body stores: the entry already there plus, over the block's eight channels, the pooled volume's sum
    times `2⁻¹⁵` plus the channel's bias. -/
theorem pay2_apply (x0 : Vec Ideal S1x8x32x64x64 .f32) (x1 : Vec Ideal S8x1x1x1 .f32) (acc : Vec Ideal S1x1x1x1 .f32)
    (y : S1x1x1x1.Idx) :
    k0_pay2 (F := Ideal) x0 x1 acc y
      = acc y + ∑ c' : Fin 8, ((∑ pd : Fin 16, ∑ ph : Fin 32, ∑ pw : Fin 32, pooledBlk x0 c' pd ph pw)
          * ((1 / 32768 : ℝ) : EReal) + x1 (ix4 c' (0 : Fin 1) (0 : Fin 1) (0 : Fin 1))) := by
  unfold k0_pay2
  dsimp only
  refine (tail_apply _ x1 acc _ _ _ _ _ _ _ _ y).trans ?_
  refine congrArg (acc y + ·) (Finset.sum_congr rfl fun c' _ => ?_)
  refine congrArg (fun z : EReal => z * ((1 / 32768 : ℝ) : EReal) + x1 (ix4 c' (0 : Fin 1) (0 : Fin 1) (0 : Fin 1))) ?_
  refine (sum3_apply _ _ _ _ _ _ c').trans ?_
  refine Finset.sum_congr rfl fun pd _ => Finset.sum_congr rfl fun ph _ => Finset.sum_congr rfl fun pw _ => ?_
  refine (pool_apply _ _ _ _ _ _ _ _ _ c' pd ph pw).trans ?_
  unfold pooledBlk
  refine congrArg cellMax (funext fun a => funext fun b => funext fun e => ?_)
  exact cast_blk x0 _ c' (up16 pd a) (up32 ph b) (up32 pw e)

end Cert.KerPay

end
-- ==== Proof.Spec.lean ====
import Idealize.ShloMosaic.Lib.ValueIdx
import proofs.«131648_j25056839205222_1_alg».proof.Proof.Pool
import proofs.«131648_j25056839205222_1_alg».proof.Proof.Idx8

/-! # What both programs compute

For `o : [16, 32, 32, 64, 64]` and `bias : [32, 1, 1, 1]` the result `[16, 1, 1, 1]` holds, for batch row `n`,

  `∑ ch, ( (∑ pd ph pw, max over the 2×2×2 cell of o at (n, ch, 2pd.., 2ph.., 2pw..)) · 2⁻¹⁵ + bias ch )`:

max pooling with window and stride 2 in depth, height and width, the mean over the `16·32·32` pooled positions of
half the pooled value (`1 / (16384 · 2) = 2⁻¹⁵`), the channel's bias added, the 32 channels summed. -/

noncomputable section

namespace Cert.Spec

open Idealize.ShloMosaic Idealize.ShloMosaic.ValueIdx Cert.Pool Cert.Idx8
open scoped BigOperators

/-- The 2×2×2 cell maximum of `o` at batch row `n`, channel `ch`, pooled position `(pd, ph, pw)`. -/
def pooled (o : (⟨5, ![16, 32, 32, 64, 64]⟩ : Shape).Idx → EReal) (n : Fin 16) (ch : Fin 32) (pd : Fin 16) (ph pw : Fin 32) :
    EReal :=
  cellMax fun a b e => o (ix5 n ch (up16 pd a) (up32 ph b) (up32 pw e))

/-- One channel's term: the pooled volume's sum times `2⁻¹⁵`, plus the channel's bias. -/
def chanVal (o : (⟨5, ![16, 32, 32, 64, 64]⟩ : Shape).Idx → EReal) (bias : (⟨4, ![32, 1, 1, 1]⟩ : Shape).Idx → EReal)
    (n : Fin 16) (ch : Fin 32) : EReal :=
  (∑ pd : Fin 16, ∑ ph : Fin 32, ∑ pw : Fin 32, pooled o n ch pd ph pw) * ((1 / 32768 : ℝ) : EReal)
    + bias (ix4 ch (0 : Fin 1) (0 : Fin 1) (0 : Fin 1))

/-- The result array: entry `(n, 0, 0, 0)` is the sum of the 32 channels' terms. -/
def result (o : (⟨5, ![16, 32, 32, 64, 64]⟩ : Shape).Idx → EReal) (bias : (⟨4, ![32, 1, 1, 1]⟩ : Shape).Idx → EReal) :
    (⟨4, ![16, 1, 1, 1]⟩ : Shape).Idx → EReal :=
  fun i => ∑ ch : Fin 32, chanVal o bias (i 0) ch

end Cert.Spec

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KerVal.lean ====
import proofs.«131648_j25056839205222_1_alg».proof.Proof.Gen.KernelIdeal.Value
import proofs.«131648_j25056839205222_1_alg».proof.Proof.KerPay
import proofs.«131648_j25056839205222_1_alg».proof.Proof.Spec
import proofs.«131648_j25056839205222_1_alg».proof.Proof.LibSumBlocks

/-! # The kernel's result array

The grid has `16 · 4` points; point `t` works on batch row `t / 4` and on the eight channels `8·(t % 4) … 8·(t % 4) + 7`,
and the four points of a row accumulate into that row's one output entry, which is written back after the fourth.
So the entry ends at `0` plus the four points' addends, each the sum over its eight channels of the channel's
term: the sum over all `32 = 4 · 8` channels. -/

noncomputable section

namespace Cert.KerVal

open Cert.KernelIdeal Cert.KernelIdeal.Gen Cert.KernelIdeal.Value Idealize.ShloMosaic Idealize.ShloMosaic.TcCoe
  Idealize.ShloMosaic.ValueIdx Idealize.SL.Sem Cert.Pool Cert.Idx8 Cert.Spec Cert.KerPay
open scoped BigOperators

variable (m : (ℓ : Loc nD τ sig) → Buf (Elt Ideal) ℓ)

/-- The input array and the bias array as the region finds them, at their literal types. -/
abbrev oarr (c : Dev nD) : FVec Ideal S16x32x32x64x64 .f32 := V m c main_arg0
abbrev barr (c : Dev nD) : FVec Ideal S32x1x1x1 .f32 := V m c main_arg1

/-! ## Which block a point reads -/

/-- The input window's block index at point `t`: row `t / 4`, channel tile `t % 4`, the whole volume. -/
theorem idx_facts0 : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0 :=
  (by decide +kernel : ∀ t : Fin grid0.N, _)

/-- The bias window's block index at point `t`: channel tile `t % 4`. -/
theorem idx_facts1 : ∀ t : Fin cfg0.N, win0_1.index t (0 : Fin 4) = t.val % 4 ∧ win0_1.index t (1 : Fin 4) = 0
    ∧ win0_1.index t (2 : Fin 4) = 0 ∧ win0_1.index t (3 : Fin 4) = 0 :=
  (by decide +kernel : ∀ t : Fin grid0.N, _)

/-- Entry `(0, c', d, r, w)` of the block point `t` reads is the array's entry at row `t / 4`, channel `8·(t % 4) + c'`. -/
theorem oblk_apply (c : Dev nD) (t : Fin cfg0.N) (c' : Fin 8) (d : Fin 32) (r w : Fin 64) (n : Fin 16) (ch : Fin 32)
    (hn : n.val = t.val / 4) (hch : ch.val = 8 * (t.val % 4) + c'.val) :
    iblk m c 0 t (ix5 (0 : Fin 1) c' d r w) = oarr m c (ix5 n ch d r w) := by
  show V m c main_arg0 (((cfg0.win 0).blk t).view.emb (ix5 (0 : Fin 1) c' d r w)) = V m c main_arg0 (ix5 n ch d r w)
  obtain ⟨e0, e1, e2, e3, e4⟩ := idx_facts0 t
  refine congrArg _ (funext fun a => Fin.ext ?_)
  match a with
  | ⟨0, _⟩ => show win0_0.index t (0 : Fin 5) * 1 + 1 * 0 = n.val; omega
  | ⟨1, _⟩ => show win0_0.index t (1 : Fin 5) * 8 + 1 * c'.val = ch.val; omega
  | ⟨2, _⟩ => show win0_0.index t (2 : Fin 5) * 32 + 1 * d.val = d.val; omega
  | ⟨3, _⟩ => show win0_0.index t (3 : Fin 5) * 64 + 1 * r.val = r.val; omega
  | ⟨4, _⟩ => show win0_0.index t (4 : Fin 5) * 64 + 1 * w.val = w.val; omega

/-- Entry `(c', 0, 0, 0)` of the bias block point `t` reads is the bias of channel `8·(t % 4) + c'`. -/
theorem bblk_apply (c : Dev nD) (t : Fin cfg0.N) (c' : Fin 8) (ch : Fin 32) (hch : ch.val = 8 * (t.val % 4) + c'.val) :
    iblk m c 1 t (ix4 c' (0 : Fin 1) (0 : Fin 1) (0 : Fin 1)) = barr m c (ix4 ch (0 : Fin 1) (0 : Fin 1) (0 : Fin 1)) := by
  show V m c main_arg1 (((cfg0.win 1).blk t).view.emb (ix4 c' (0 : Fin 1) (0 : Fin 1) (0 : Fin 1)))
    = V m c main_arg1 (ix4 ch (0 : Fin 1) (0 : Fin 1) (0 : Fin 1))
  obtain ⟨e0, e1, e2, e3⟩ := idx_facts1 t
  refine congrArg _ (funext fun a => Fin.ext ?_)
  match a with
  | ⟨0, _⟩ => show win0_1.index t (0 : Fin 4) * 8 + 1 * c'.val = ch.val; omega
  | ⟨1, _⟩ => show win0_1.index t (1 : Fin 4) * 1 + 1 * 0 = 0; omega
  | ⟨2, _⟩ => show win0_1.index t (2 : Fin 4) * 1 + 1 * 0 = 0; omega
  | ⟨3, _⟩ => show win0_1.index t (3 : Fin 4) * 1 + 1 * 0 = 0; omega

/-! ## What a point adds -/

/-- Channel `c'` of channel tile `s`. -/
abbrev chanOf (s : Fin 4) (c' : Fin 8) : Fin 32 := ⟨8 * s.val + c'.val, Cert.LibSumBlocks.block_lt (show 4 * 8 = 32 from rfl) s c'⟩

/-- The sum of the eight channels' terms of row `q`, channel tile `s`. -/
def tileSum (o : FVec Ideal S16x32x32x64x64 .f32) (bias : FVec Ideal S32x1x1x1 .f32) (q : Fin 16) (s : Fin 4) : EReal :=
  ∑ c' : Fin 8, chanVal o bias q (chanOf s c')

/-- Point `n`'s addend, for every natural `n` (row `n / 4`, tile `n % 4`; past the grid the value is never used). -/
def addend (c : Dev nD) (n : ℕ) : S1x1x1x1.Idx → EReal := fun _ =>
  tileSum (oarr m c) (barr m c) ⟨(n / 4) % 16, Nat.mod_lt _ (by decide)⟩ ⟨n % 4, Nat.mod_lt _ (by decide)⟩

/-- The body at point `n` stores the entry it found plus the point's addend. -/
theorem pay_point (c : Dev nD) (n : ℕ) (h : n < cfg0.N) (acc : Vec Ideal S1x1x1x1 .f32) (y : S1x1x1x1.Idx) :
    k0_pay2 (F := Ideal) (iblk m c 0 ⟨n, h⟩) (iblk m c 1 ⟨n, h⟩) acc y = acc y + addend m c n y := by
  have hN : n < 64 := lt_of_lt_of_eq h (show cfg0.N = 64 from N_0)
  rw [pay2_apply]
  unfold addend tileSum
  refine congrArg (acc y + ·) (Finset.sum_congr rfl fun c' _ => ?_)
  have hc' := c'.isLt
  have hq : ((⟨(n / 4) % 16, Nat.mod_lt _ (by decide)⟩ : Fin 16)).val = (⟨n, h⟩ : Fin cfg0.N).val / 4 := by
    show (n / 4) % 16 = n / 4; omega
  have hch : (chanOf ⟨n % 4, Nat.mod_lt _ (by decide)⟩ c').val = 8 * ((⟨n, h⟩ : Fin cfg0.N).val % 4) + c'.val := rfl
  unfold chanVal
  rw [bblk_apply m c ⟨n, h⟩ c' _ hch]
  refine congrArg (fun z : EReal => z * ((1 / 32768 : ℝ) : EReal) + _) ?_
  refine Finset.sum_congr rfl fun pd _ => Finset.sum_congr rfl fun ph _ => Finset.sum_congr rfl fun pw _ => ?_
  unfold pooledBlk pooled
  refine congrArg cellMax (funext fun a => funext fun b => funext fun e => ?_)
  exact oblk_apply m c ⟨n, h⟩ c' (up16 pd a) (up32 ph b) (up32 pw e) _ _ hq hch

/-! ## The array after the run -/

/-- The output array ends at the specification's result of the two argument arrays. -/
theorem G2_eq (c : Dev nD) : G2 m c = result (oarr m c) (barr m c) := by
  funext i
  have hi0 : (i 0).val < 16 := (i 0).isLt
  have hi1 : (i 1).val < 1 := (i 1).isLt
  have hi2 : (i 2).val < 1 := (i 2).isLt
  have hi3 : (i 3).val < 1 := (i 3).isLt
  have hr : run2Of i = (i 0).val := by
    show 1 * ((i 0).val / 1 - 0) + 1 * ((i 1).val / 1 - 0) + 1 * ((i 2).val / 1 - 0) + 1 * ((i 3).val / 1 - 0) = (i 0).val
    omega
  have hlt : 4 * run2Of i + 3 < cfg0.N := by
    rw [hr]; show 4 * (i 0).val + 3 < grid0.N; rw [N_0]; omega
  unfold G2
  rw [dif_pos hlt]
  refine (Pipeline.accAt_add_apply (ι := S1x1x1x1.Idx) (β := EReal) (reset2 m c) (step2 m c) (k0_pay1 (F := Ideal))
    (addend m c) (4 * run2Of i) 3 (fun h y => pay_point m c _ h _ y) (fun n h acc y _ _ => pay_point m c n h acc y)
    3 le_rfl hlt (loc2Of i)).trans ?_
  have hz : k0_pay1 (F := Ideal) (loc2Of i) = (0 : EReal) := Consts.ofBits_zero
  rw [hz, zero_add]
  show ∑ s ∈ Finset.range 4, addend m c (4 * run2Of i + s) (loc2Of i) = result (oarr m c) (barr m c) i
  rw [Finset.sum_range]
  unfold result
  rw [← Cert.LibSumBlocks.sum_blocks (show 4 * 8 = 32 from rfl) (fun ch => chanVal (oarr m c) (barr m c) (i 0) ch)]
  refine Finset.sum_congr rfl fun s _ => ?_
  have hs := s.isLt
  unfold addend tileSum
  have e1 : (⟨((4 * run2Of i + s.val) / 4) % 16, Nat.mod_lt _ (by decide)⟩ : Fin 16) = i 0 := Fin.ext (by
    show ((4 * run2Of i + s.val) / 4) % 16 = (i 0).val; rw [hr]; omega)
  have e2 : (⟨(4 * run2Of i + s.val) % 4, Nat.mod_lt _ (by decide)⟩ : Fin 4) = s := Fin.ext (by
    show (4 * run2Of i + s.val) % 4 = s.val; rw [hr]; omega)
  rw [e1, e2]

end Cert.KerVal

end
-- ==== Proof.RefVal.lean ====
import proofs.«131648_j25056839205222_1_alg».proof.Proof.Gen.ReferenceIdeal.Read
import Idealize.ShloMosaic.Lib.ValueIdx
import Idealize.ShloMosaic.Lib.IdealHost
import Idealize.ShloMosaic.PureOps.Reduce
import Idealize.ShloMosaic.PureOps.Ideal.Laws
import proofs.«131648_j25056839205222_1_alg».proof.Proof.Spec
import proofs.«131648_j25056839205222_1_alg».proof.Proof.Consts

/-! # The reference's result array

The reference halves the array, views it with each of depth, height and width split in pairs, takes the maximum
over the three pair axes at once, sums the pooled `[16, 32, 32]` volume over its three axes at once, divides by
`16384`, adds the channel's bias and sums the 32 channels. Halving is multiplying by the positive real `1/2`: it
commutes with the cell's maximum and comes out of the volume's sum, and `(·) · 1/2 · 1/16384 = (·) · 2⁻¹⁵`. The set
a several-axes reduction runs over is named by coordinates: the indices that drop to `(n, k, pd, ph, pw)` are
`(n, k, pd, a, ph, b, pw, e)`, and those that drop to `(n, k)` are `(n, k, pd, ph, pw)`. -/

noncomputable section

namespace Cert.RefVal

open Cert.ReferenceIdeal Cert.ReferenceIdeal.Gen Cert.ReferenceIdeal.Read Idealize.ShloMosaic Idealize.ShloMosaic.TcCoe
  Idealize.ShloMosaic.ValueIdx Cert.Pool Cert.Idx8 Cert.Spec
open scoped BigOperators

variable (o : FVec Ideal S16x32x32x64x64 .f32) (bias : FVec Ideal S32x1x1x1 .f32)

/-! ## Halving, the split view, the cell's maximum -/

/-- The halved array: each entry times `1/2`. -/
theorem v1_apply (x : S16x32x32x64x64.Idx) : val_main_v1 (F := Ideal) o x = o x * ((1 / 2 : ℝ) : EReal) := by
  rw [val_main_v1_apply, val_main_v0_apply, val_main_cst_apply, Ideal.hostDivf_def, Ideal.ofBits_def, Consts.ofBits_two,
    Ideal.div_coe (by norm_num)]

/-- The split view's entry `(n, k, pd, a, ph, b, pw, e)` is the halved array's at `(n, k, 2pd + a, 2ph + b, 2pw + e)`. -/
theorem v2_apply (n : Fin 16) (k : Fin 32) (pd : Fin 16) (a : Fin 2) (ph : Fin 32) (b : Fin 2) (pw : Fin 32) (e : Fin 2) :
    val_main_v2 (F := Ideal) o (ix8 n k pd a ph b pw e)
      = val_main_v1 (F := Ideal) o (ix5 n k (up16 pd a) (up32 ph b) (up32 pw e)) := by
  unfold val_main_v2
  exact shapeCast_apply _ _ _ _ (split_pos_up n k pd a ph b pw e)

/-- An index of the split view drops (its pair axes 3, 5, 7 removed) to `(n, k, pd, ph, pw)` iff those are its other
    coordinates. -/
theorem drop8 (h : S16x32x16x2x32x2x32x2.ReducesTo [3, 5, 7] S16x32x16x32x32) (n : Fin 16) (k : Fin 32) (pd : Fin 16)
    (a : Fin 2) (ph : Fin 32) (b : Fin 2) (pw : Fin 32) (e : Fin 2) :
    h.drop (ix8 n k pd a ph b pw e) = ix5 n k pd ph pw := by
  funext j
  apply Fin.ext
  match j with
  | ⟨0, _⟩ => exact h.drop_apply_val_of_eq _ 0 0
  | ⟨1, _⟩ => exact h.drop_apply_val_of_eq _ 1 1
  | ⟨2, _⟩ => exact h.drop_apply_val_of_eq _ 2 2
  | ⟨3, _⟩ => exact h.drop_apply_val_of_eq _ 3 4
  | ⟨4, _⟩ => exact h.drop_apply_val_of_eq _ 4 6

theorem of_drop8 (h : S16x32x16x2x32x2x32x2.ReducesTo [3, 5, 7] S16x32x16x32x32) (i : S16x32x16x2x32x2x32x2.Idx)
    (n : Fin 16) (k : Fin 32) (pd : Fin 16) (ph : Fin 32) (pw : Fin 32) (hd : h.drop i = ix5 n k pd ph pw) :
    i = ix8 n k pd (i 3) ph (i 5) pw (i 7) := by
  have c0 : (i 0).val = n.val := (h.drop_apply_val_of_eq i 0 0).symm.trans (congrArg (fun j => (j 0).val) hd)
  have c1 : (i 1).val = k.val := (h.drop_apply_val_of_eq i 1 1).symm.trans (congrArg (fun j => (j 1).val) hd)
  have c2 : (i 2).val = pd.val := (h.drop_apply_val_of_eq i 2 2).symm.trans (congrArg (fun j => (j 2).val) hd)
  have c4 : (i 4).val = ph.val := (h.drop_apply_val_of_eq i 3 4).symm.trans (congrArg (fun j => (j 3).val) hd)
  have c6 : (i 6).val = pw.val := (h.drop_apply_val_of_eq i 4 6).symm.trans (congrArg (fun j => (j 4).val) hd)
  funext a
  apply Fin.ext
  match a with
  | ⟨0, _⟩ => exact c0
  | ⟨1, _⟩ => exact c1
  | ⟨2, _⟩ => exact c2
  | ⟨3, _⟩ => rfl
  | ⟨4, _⟩ => exact c4
  | ⟨5, _⟩ => rfl
  | ⟨6, _⟩ => exact c6
  | ⟨7, _⟩ => rfl

/-- The pooled array's entry: the maximum over the cell of the halved entries. -/
theorem v3_apply (n : Fin 16) (k : Fin 32) (pd : Fin 16) (ph : Fin 32) (pw : Fin 32) :
    val_main_v3 (F := Ideal) o (ix5 n k pd ph pw)
      = cellMax fun a b e => val_main_v1 (F := Ideal) o (ix5 n k (up16 pd a) (up32 ph b) (up32 pw e)) := by
  unfold val_main_v3
  rw [Host.reduce_eq_fold]
  have hinit : val_main_cst_0 (F := Ideal) (Shape.Idx.first h_S_) = (⊥ : EReal) := Consts.ofBits_neg_inf
  rw [hinit]
  refine fold_eq_cellMax _ _ _ ?_ ?_
  · intro i hi
    have hd := (Finset.mem_filter.1 hi).2
    refine ⟨i 3, i 5, i 7, ?_⟩
    exact (congrArg (val_main_v2 (F := Ideal) o) (of_drop8 _ i n k pd ph pw hd)).trans
      (v2_apply o n k pd (i 3) ph (i 5) pw (i 7))
  · intro a b e
    exact ⟨ix8 n k pd a ph b pw e, Finset.mem_filter.2 ⟨Finset.mem_univ _, drop8 _ n k pd a ph b pw e⟩,
      v2_apply o n k pd a ph b pw e⟩

/-! ## The sum over the pooled volume -/

/-- The indices of the pooled array that drop (axes 2, 3, 4 removed) to `(n, k)` are the `(n, k, pd, ph, pw)`: a
    sum over them is the triple sum over the pooled positions. -/
theorem sum_filter_drop3 (h : S16x32x16x32x32.ReducesTo [2, 3, 4] S16x32) (f : S16x32x16x32x32.Idx → EReal)
    (n : Fin 16) (k : Fin 32) :
    ∑ i ∈ Finset.univ.filter (fun i => h.drop i = ix2 n k), f i
      = ∑ pd : Fin 16, ∑ ph : Fin 32, ∑ pw : Fin 32, f (ix5 n k pd ph pw) := by
  have hmem : ∀ (pd : Fin 16) (ph pw : Fin 32), h.drop (ix5 n k pd ph pw) = ix2 n k := fun pd ph pw =>
    funext fun j => Fin.ext (by
      match j with
      | ⟨0, _⟩ => exact h.drop_apply_val_of_eq _ 0 0
      | ⟨1, _⟩ => exact h.drop_apply_val_of_eq _ 1 1)
  have hprod : ∑ pd : Fin 16, ∑ ph : Fin 32, ∑ pw : Fin 32, f (ix5 n k pd ph pw)
      = ∑ p : Fin 16 × Fin 32 × Fin 32, f (ix5 n k p.1 p.2.1 p.2.2) := by
    rw [Fintype.sum_prod_type]
    refine Finset.sum_congr rfl fun pd _ => ?_
    rw [Fintype.sum_prod_type]
  rw [hprod]
  refine Finset.sum_nbij' (fun i => (i 2, i 3, i 4)) (fun p => ix5 n k p.1 p.2.1 p.2.2) ?_ ?_ ?_ ?_ ?_
  · intro i _; exact Finset.mem_univ _
  · intro p _; exact Finset.mem_filter.2 ⟨Finset.mem_univ _, hmem p.1 p.2.1 p.2.2⟩
  · intro i hi
    have hd := (Finset.mem_filter.1 hi).2
    have c0 : (i 0).val = n.val := (h.drop_apply_val_of_eq i 0 0).symm.trans (congrArg (fun j => (j 0).val) hd)
    have c1 : (i 1).val = k.val := (h.drop_apply_val_of_eq i 1 1).symm.trans (congrArg (fun j => (j 1).val) hd)
    funext a
    apply Fin.ext
    match a with
    | ⟨0, _⟩ => exact c0.symm
    | ⟨1, _⟩ => exact c1.symm
    | ⟨2, _⟩ => rfl
    | ⟨3, _⟩ => rfl
    | ⟨4, _⟩ => rfl
  · intro p _; rfl
  · intro i hi
    have hd := (Finset.mem_filter.1 hi).2
    have c0 : (i 0).val = n.val := (h.drop_apply_val_of_eq i 0 0).symm.trans (congrArg (fun j => (j 0).val) hd)
    have c1 : (i 1).val = k.val := (h.drop_apply_val_of_eq i 1 1).symm.trans (congrArg (fun j => (j 1).val) hd)
    refine congrArg f (funext fun a => Fin.ext ?_)
    match a with
    | ⟨0, _⟩ => exact c0
    | ⟨1, _⟩ => exact c1
    | ⟨2, _⟩ => rfl
    | ⟨3, _⟩ => rfl
    | ⟨4, _⟩ => rfl

/-- The volume's sum of channel `k` of row `n`: `0` plus the triple sum of the pooled entries. -/
theorem v4_apply (n : Fin 16) (k : Fin 32) :
    val_main_v4 (F := Ideal) o (ix2 n k)
      = 0 + ∑ pd : Fin 16, ∑ ph : Fin 32, ∑ pw : Fin 32, val_main_v3 (F := Ideal) o (ix5 n k pd ph pw) := by
  unfold val_main_v4
  rw [hostReduceAdd_apply]
  unfold Ideal.hostReduceAdd
  have hinit : val_main_cst_1 (F := Ideal) (Shape.Idx.first h_S_) = (0 : EReal) := Consts.ofBits_zero
  rw [hinit, sum_filter_drop3]

/-! ## One channel's term, and the result -/

/-- The reference's term of channel `k` of row `n` is the specification's. -/
theorem v9_apply (n : Fin 16) (k : Fin 32) : val_main_v9 (F := Ideal) o bias (ix2 n k) = chanVal o bias n k := by
  rw [val_main_v9_apply, val_main_v6_apply, val_main_v5_apply, val_main_cst_2_apply, val_main_v8_apply, val_main_v7_apply,
    v4_apply, Ideal.addf_def, Ideal.hostDivf_def, Ideal.ofBits_def, Consts.ofBits_16384, Ideal.div_coe (by norm_num), zero_add]
  unfold chanVal
  have hb : idx_main_v7 (idx_main_v8 (ix2 n k)) = ix4 k (0 : Fin 1) (0 : Fin 1) (0 : Fin 1) := by
    funext a
    apply Fin.ext
    match a with
    | ⟨0, _⟩ => show (0 * 32 + k.val) / 1 = k.val; omega
    | ⟨1, _⟩ => rfl
    | ⟨2, _⟩ => rfl
    | ⟨3, _⟩ => rfl
  rw [hb]
  refine congrArg (fun z : EReal => z + bias (ix4 k (0 : Fin 1) (0 : Fin 1) (0 : Fin 1))) ?_
  have hcell : ∀ (pd : Fin 16) (ph pw : Fin 32),
      val_main_v3 (F := Ideal) o (ix5 n k pd ph pw) = pooled o n k pd ph pw * ((1 / 2 : ℝ) : EReal) := fun pd ph pw => by
    rw [v3_apply]
    unfold pooled
    rw [← cellMax_mul _ (by norm_num : (0 : ℝ) < 1 / 2)]
    refine congrArg cellMax (funext fun a => funext fun b => funext fun e => ?_)
    exact v1_apply o _
  have hsum : ∑ pd : Fin 16, ∑ ph : Fin 32, ∑ pw : Fin 32, val_main_v3 (F := Ideal) o (ix5 n k pd ph pw)
      = (∑ pd : Fin 16, ∑ ph : Fin 32, ∑ pw : Fin 32, pooled o n k pd ph pw) * ((1 / 2 : ℝ) : EReal) := by
    rw [← sum_mul_const _ _ (by norm_num : (0 : ℝ) ≤ 1 / 2)]
    refine Finset.sum_congr rfl fun pd _ => ?_
    rw [← sum_mul_const _ _ (by norm_num : (0 : ℝ) ≤ 1 / 2)]
    refine Finset.sum_congr rfl fun ph _ => ?_
    rw [← sum_mul_const _ _ (by norm_num : (0 : ℝ) ≤ 1 / 2)]
    exact Finset.sum_congr rfl fun pw _ => hcell pd ph pw
  rw [hsum]
  exact half_mul_inv16384 _

/-- THE REFERENCE'S RESULT is the specification's result of the two argument arrays. -/
theorem ref_eq : val_main_v11 (F := Ideal) o bias = result o bias := by
  funext i
  have hi0 : (i 0).val < 16 := (i 0).isLt
  have hi1 : (i 1).val < 1 := (i 1).isLt
  have hi2 : (i 2).val < 1 := (i 2).isLt
  have hi3 : (i 3).val < 1 := (i 3).isLt
  rw [val_main_v11_apply, val_main_v10_apply]
  have hinit : val_main_cst_3 (F := Ideal) (Shape.Idx.first h_S_) = (0 : EReal) := Consts.ofBits_zero
  rw [hinit, zero_add]
  unfold result
  refine Finset.sum_congr rfl fun k _ => ?_
  have hk : idx_main_v10 (idx_main_v11 i) k = ix2 (i 0) k := by
    funext a
    apply Fin.ext
    match a with
    | ⟨0, _⟩ => show (((i 0).val * 1 + (i 1).val) * 1 + (i 2).val) * 1 + (i 3).val = (i 0).val; omega
    | ⟨1, _⟩ => rfl
  rw [hk]
  exact v9_apply o bias (i 0) k

end Cert.RefVal

end
-- ==== Proof.lean ====
/- Max pooling, mean, bias and channel sum: the kernel against its plain reference, over the extended reals.

   Both programs map `o : [16, 32, 32, 64, 64]` and `bias : [32, 1, 1, 1]` to `[16, 1, 1, 1]`. Write `M(n, ch, p)` for
   the largest of the eight entries of `o` in the 2×2×2 cell at pooled position `p = (pd, ph, pw)` of channel `ch` of
   row `n`. The reference computes `∑ ch, ((∑ p, max over the cell of o/2) / 16384 + bias ch)`. The kernel visits the
   row in four steps of eight channels, and at each step adds `∑ c', ((∑ p, M) · 2⁻¹⁵ + bias)` to the row's entry, which
   starts at `0`; it takes the cell's maximum one axis at a time and the volume's sum one axis at a time.

   The two agree on EVERY extended real input, with no use of finiteness: dividing by `2` is multiplying by the
   positive real `1/2`, which is monotone and fixes `-∞`, so it commutes with the maximum; a nonnegative real factor
   comes out of any sum of extended reals; `1/2 · 1/16384 = 2⁻¹⁵` exactly; a maximum does not depend on the order or
   grouping of its entries, nor does a sum; and `4 · 8 = 32` channels. Proof/Spec.lean states the common value,
   Proof/KerVal.lean shows the kernel's output array is it, Proof/RefVal.lean the reference's. -/
import proofs.«131648_j25056839205222_1_alg».proof.Defs
import proofs.«131648_j25056839205222_1_alg».proof.Proof.Gen.Kernel.Frame
import proofs.«131648_j25056839205222_1_alg».proof.Proof.Gen.KernelIdeal.Value
import proofs.«131648_j25056839205222_1_alg».proof.Proof.Gen.Pre_finite_inputs
import proofs.«131648_j25056839205222_1_alg».proof.Proof.Gen.ReferenceIdeal.Run
import proofs.«131648_j25056839205222_1_alg».proof.Proof.Gen.ReferenceIdeal.Read
import proofs.«131648_j25056839205222_1_alg».proof.Proof.KerVal
import proofs.«131648_j25056839205222_1_alg».proof.Proof.RefVal
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the two arguments both programs end with the same result array: the kernel's output
    array is the common value of its arguments (`KerVal.G2_eq`), and the reference's composed term is its last stage,
    which is the common value too (`RefVal.ref_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v11_eq _ _).trans ?_
  refine (Cert.RefVal.ref_eq _ _).trans ?_
  exact (Cert.KerVal.G2_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
